-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_500000" .f32 0x360637BD#32 ((1 / 500000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x16000000 : Shape := ⟨2, ![2, 16000000]⟩
abbrev S16000000 : Shape := ⟨1, ![16000000]⟩
abbrev S_ : Shape := ⟨0, ![]⟩
abbrev S1x16000000 : Shape := ⟨2, ![1, 16000000]⟩

class Facts : Prop where
  bcast_S_S500000 : S_.BroadcastsInDim S500000 (![] : Fin 0 → Fin S500000.rank)
  reducesTo_S500000_S_d0 : S500000.ReducesTo [0] S_
  h_S_ : 0 < S_.numel
  bcast_S_S16000000 : S_.BroadcastsInDim S16000000 (![] : Fin 0 → Fin S16000000.rank)
  reducesTo_S16000000_S_d0 : S16000000.ReducesTo [0] S_
  slices_S2x16000000_S1x16000000_1_0 : S2x16000000.Slices ![1, 0] S1x16000000
  shapeCasts_S1x16000000_S16000000 : S1x16000000.ShapeCasts S16000000

variable [Facts]

def fn_part1 {F : FTy → Type} [FloatOps F] (main_arg1 : IVec S2x16000000 32) (main_v13 : IVec S_ 1) (main_v15 : IVec S16000000 32) (main_v16 : IVec S16000000 32) : IVec S_ 1 :=
  let main_v17 : IVec S16000000 1 := cmpi .sge main_v15 main_v16
  let main_c_5 : IVec S_ 1 := constantI S_ 1 1#1
  let main_v18 : IVec S_ 1 := (fun x v => Host.reduce IntOp.andi x v reducesTo_S16000000_S_d0 h_S_) main_v17 main_c_5
  let main_v19 : IVec S_ 1 := andi main_v13 main_v18
  let main_v20 : IVec S1x16000000 32 := (extractStridedSlice S1x16000000 ![1, 0] · slices_S2x16000000_S1x16000000_1_0) main_arg1
  let main_v21 : IVec S16000000 32 := shapeCast S16000000 main_v20 shapeCasts_S1x16000000_S16000000
  let main_c_6 : IVec S_ 32 := constantI S_ 32 500000#32
  let main_v22 : IVec S16000000 32 := broadcastInDim S16000000 ![] bcast_S_S16000000 main_c_6
  let main_v23 : IVec S16000000 1 := cmpi .slt main_v21 main_v22
  let main_c_7 : IVec S_ 1 := constantI S_ 1 1#1
  let main_v24 : IVec S_ 1 := (fun x v => Host.reduce IntOp.andi x v reducesTo_S16000000_S_d0 h_S_) main_v23 main_c_7
  let main_v25 : IVec S_ 1 := andi main_v19 main_v24
  main_v25

def fn {F : FTy → Type} [FloatOps F] (main_arg0 : FVec F S500000 .f32) (main_arg1 : IVec S2x16000000 32) (main_arg2 : FVec F S16000000 .f32) (main_arg3 : IVec S500000 1) (main_arg4 : FVec F S500000 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S500000 .f32 := Host.absf main_arg4
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : IVec S1x16000000 32 := (extractStridedSlice S1x16000000 ![1, 0] · slices_S2x16000000_S1x16000000_1_0) main_arg1
  let main_v15 : IVec S16000000 32 := shapeCast S16000000 main_v14 shapeCasts_S1x16000000_S16000000
  let main_c_4 : IVec S_ 32 := constantI S_ 32 0#32
  let main_v16 : IVec S16000000 32 := broadcastInDim S16000000 ![] bcast_S_S16000000 main_c_4
  fn_part1 (F := F) main_arg1 main_v13 main_v15 main_v16
-- ==== Kernel.lean ====
abbrev S500000 : Shape := ⟨1, ![500000]⟩
abbrev S2x16000000 : Shape := ⟨2, ![2, 16000000]⟩
abbrev S16000000 : Shape := ⟨1, ![16000000]⟩
abbrev S1x16000000 : Shape := ⟨2, ![1, 16000000]⟩
abbrev S_ : Shape := ⟨0, ![]⟩
abbrev S16000000x1 : Shape := ⟨2, ![16000000, 1]⟩
abbrev S1 : Shape := ⟨1, ![1]⟩
abbrev S1x1 : Shape := ⟨2, ![1, 1]⟩
abbrev S500096 : Shape := ⟨1, ![500096]⟩
abbrev S3907x128 : Shape := ⟨2, ![3907, 128]⟩
abbrev S3907 : Shape := ⟨1, ![3907]⟩
abbrev S3907x1 : Shape := ⟨2, ![3907, 1]⟩

abbrev nBuf : Space → Nat
  | .hbm => 54
  | .vmem => 4
  | .smem => 0
  | _ => 0

abbrev bufTy : (tb : Table) → Fin (tcTables nBuf tb) → BufTy
  | .hbm, ⟨0, _⟩ => ⟨S500000, .f32⟩
  | .hbm, ⟨1, _⟩ => ⟨S2x16000000, .i32⟩
  | .hbm, ⟨2, _⟩ => ⟨S16000000, .f32⟩
  | .hbm, ⟨3, _⟩ => ⟨S500000, .i1⟩
  | .hbm, ⟨4, _⟩ => ⟨S500000, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S1, .i32⟩
  | .hbm, ⟨18, _⟩ => ⟨S_, .i32⟩
  | .hbm, ⟨19, _⟩ => ⟨S16000000x1, .i32⟩
  | .hbm, ⟨20, _⟩ => ⟨S16000000x1, .i1⟩
  | .hbm, ⟨21, _⟩ => ⟨S1x1, .i32⟩
  | .hbm, ⟨22, _⟩ => ⟨S16000000x1, .i32⟩
  | .hbm, ⟨23, _⟩ => ⟨S16000000x1, .i1⟩
  | .hbm, ⟨24, _⟩ => ⟨S16000000x1, .i1⟩
  | .hbm, ⟨25, _⟩ => ⟨S_, .i1⟩
  | .hbm, ⟨26, _⟩ => ⟨S16000000, .i1⟩
  | .hbm, ⟨27, _⟩ => ⟨S16000000, .f32⟩
  | .hbm, ⟨28, _⟩ => ⟨S_, .f32⟩
  | .hbm, ⟨29, _⟩ => ⟨S16000000, .f32⟩
  | .hbm, ⟨30, _⟩ => ⟨S16000000, .f32⟩
  | .hbm, ⟨31, _⟩ => ⟨S16000000, .f32⟩
  | .hbm, ⟨32, _⟩ => ⟨S_, .f32⟩
  | .hbm, ⟨33, _⟩ => ⟨S500000, .f32⟩
  | .hbm, ⟨34, _⟩ => ⟨S16000000x1, .i32⟩
  | .hbm, ⟨35, _⟩ => ⟨S500000, .f32⟩
  | .hbm, ⟨36, _⟩ => ⟨S_, .i32⟩
  | .hbm, ⟨37, _⟩ => ⟨S_, .f32⟩
  | .hbm, ⟨38, _⟩ => ⟨S500096, .f32⟩
  | .hbm, ⟨39, _⟩ => ⟨S3907x128, .f32⟩
  | .hbm, ⟨40, _⟩ => ⟨S_, .i32⟩
  | .hbm, ⟨41, _⟩ => ⟨S_, .f32⟩
  | .hbm, ⟨42, _⟩ => ⟨S500096, .f32⟩
  | .hbm, ⟨43, _⟩ => ⟨S3907x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S500096, .i1⟩
  | .hbm, ⟨50, _⟩ => ⟨S3907x128, .i1⟩
  | .hbm, ⟨51, _⟩ => ⟨S3907x128, .i32⟩
  | .hbm, ⟨52, _⟩ => ⟨S1x1, .f32⟩
  | .hbm, ⟨53, _⟩ => ⟨S_, .f32⟩
  | .local _ .vmem, ⟨0, _⟩ => ⟨S3907x128, .f32⟩
  | .local _ .vmem, ⟨1, _⟩ => ⟨S3907x128, .f32⟩
  | .local _ .vmem, ⟨2, _⟩ => ⟨S3907x128, .i32⟩
  | .local _ .vmem, ⟨3, _⟩ => ⟨S1x1, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_call1_v0 : Ref sig .tc := ⟨.hbm, 37, rfl⟩
abbrev main_v9 : Ref sig .tc := ⟨.hbm, 38, rfl⟩
abbrev main_v10 : Ref sig .tc := ⟨.hbm, 39, rfl⟩
abbrev main_c_0 : Ref sig .tc := ⟨.hbm, 40, rfl⟩
abbrev main_call2_v0 : Ref sig .tc := ⟨.hbm, 41, rfl⟩
abbrev main_v11 : Ref sig .tc := ⟨.hbm, 42, rfl⟩
abbrev main_v12 : Ref sig .tc := ⟨.hbm, 43, rfl⟩
abbrev main_c_1 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3907x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3907x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3907x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S_S500000 : S_.BroadcastsInDim S500000 (![] : Fin 0 → Fin S500000.rank)
  pads_S500000_S500096_0960 : S500000.Pads (![0] : Fin 1 → Nat) ![96] ![0] S500096
  shapeCasts_S500096_S3907x128 : S500096.ShapeCasts S3907x128
  bcast_S_S_ : S_.BroadcastsInDim S_ (![] : Fin 0 → Fin S_.rank)
  natLt_1_32 : 1 < 32
  inb_S3907x128_S3907x128_0_0 : ∀ a, (![0, 0] : Fin 2 → Nat) a + S3907x128.size a ≤ S3907x128.size a
  h_S3907x128 : 0 < S3907x128.numel
  shapeCasts_S3907x128_S3907x128 : S3907x128.ShapeCasts S3907x128
  reduces_S3907x128_S3907 : S3907x128.Reduces [1] S3907
  shapeCasts_S3907_S3907x1 : S3907.ShapeCasts S3907x1
  reduces_S3907x1_S1 : S3907x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3907x128.size a ≤ S3907x128.size a
  hwx0_0 : ∀ i : grid0.Coords, EltTy.bits .f32 = 32 ∨ (Rect.block (s := S3907x128) S3907x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3907x128.size a ≤ S3907x128.size a
  hwx0_1 : ∀ i : grid0.Coords, EltTy.bits .f32 = 32 ∨ (Rect.block (s := S3907x128) S3907x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3907x128.size a ≤ S3907x128.size a
  hwx0_2 : ∀ i : grid0.Coords, EltTy.bits .i32 = 32 ∨ (Rect.block (s := S3907x128) S3907x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

abbrev win0_0 : Pipeline.Window sig grid0 :=
  Pipeline.Window.ofSpec (Memref.whole main_v10) S3907x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3907x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3907x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000 : Shape := ⟨1, ![500000]⟩
abbrev S2x16000000 : Shape := ⟨2, ![2, 16000000]⟩
abbrev S16000000 : Shape := ⟨1, ![16000000]⟩
abbrev S1x16000000 : Shape := ⟨2, ![1, 16000000]⟩
abbrev S_ : Shape := ⟨0, ![]⟩
abbrev S16000000x1 : Shape := ⟨2, ![16000000, 1]⟩

abbrev nBuf : Space → Nat
  | .hbm => 32
  | .vmem => 0
  | .smem => 0
  | _ => 0

abbrev bufTy : (tb : Table) → Fin (tcTables nBuf tb) → BufTy
  | .hbm, ⟨0, _⟩ => ⟨S500000, .f32⟩
  | .hbm, ⟨1, _⟩ => ⟨S2x16000000, .i32⟩
  | .hbm, ⟨2, _⟩ => ⟨S16000000, .f32⟩
  | .hbm, ⟨3, _⟩ => ⟨S500000, .i1⟩
  | .hbm, ⟨4, _⟩ => ⟨S500000, .f32⟩
  | .hbm, ⟨5, _⟩ => ⟨S1x16000000, .i32⟩
  | .hbm, ⟨6, _⟩ => ⟨S16000000, .i32⟩
  | .hbm, ⟨7, _⟩ => ⟨S1x16000000, .i32⟩
  | .hbm, ⟨8, _⟩ => ⟨S16000000, .i32⟩
  | .hbm, ⟨9, _⟩ => ⟨S_, .i32⟩
  | .hbm, ⟨10, _⟩ => ⟨S16000000, .i32⟩
  | .hbm, ⟨11, _⟩ => ⟨S16000000, .i1⟩
  | .hbm, ⟨12, _⟩ => ⟨S_, .i32⟩
  | .hbm, ⟨13, _⟩ => ⟨S16000000, .i32⟩
  | .hbm, ⟨14, _⟩ => ⟨S16000000, .i32⟩
  | .hbm, ⟨15, _⟩ => ⟨S16000000, .i32⟩
  | .hbm, ⟨16, _⟩ => ⟨S16000000x1, .i32⟩
  | .hbm, ⟨17, _⟩ => ⟨S16000000, .f32⟩
  | .hbm, ⟨18, _⟩ => ⟨S16000000, .f32⟩
  | .hbm, ⟨19, _⟩ => ⟨S_, .f32⟩
  | .hbm, ⟨20, _⟩ => ⟨S500000, .f32⟩
  | .hbm, ⟨21, _⟩ => ⟨S16000000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S500000, .f32⟩
  | .hbm, ⟨27, _⟩ => ⟨S500000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000 : S_.BroadcastsInDim S500000 (![] : Fin 0 → Fin S500000.rank)
  reducesTo_S500000_S_d0 : S500000.ReducesTo [0] S_
  h_S_ : 0 < S_.numel
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.LossBlock.lean ====
/-
  The kernel program's result, read off its frame run.

  The launch has ONE grid point, and each of its four windows is its whole array: the three inputs of
  shape [3907, 128] — the scattered products, the residual and the mask, each padded from 500000 to
  500096 entries and laid out in rows of 128 lanes — and the [1, 1] output. So the block a window
  stages is the array itself, what the body stores is what the output array ends holding, and the
  program's scalar result is that [1, 1] array with its two unit axes dropped.
-/
import proofs.«413748_j82978768159400_3_alg».proof.Defs
import proofs.«413748_j82978768159400_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F] [Named F]
variable (m : (ℓ : Loc nD τ sig) → Buf (Elt F) ℓ) (ρ : Dev nD → PrngReg)

theorem zero_offsets : (![0, 0] : Fin 2 → Nat) = fun _ => 0 := funext fun a => by fin_cases a <;> rfl

/-- The padded products, the padded residual and the widened padded mask, in rows of 128, as the launch finds them. -/
abbrev prodRows (c : Dev nD) : Vec F S3907x128 .f32 := V m c main_v10
abbrev resRows (c : Dev nD) : Vec F S3907x128 .f32 := V m c main_v12
abbrev maskRows (c : Dev nD) : Vec F S3907x128 .i32 := V m c main_v15

/-- What the one grid point stores: the body's arithmetic of the three whole arrays. -/
abbrev stored (c : Dev nD) : Vec F S1x1 .f32 := k0_pay1 (prodRows m c) (resRows m c) (maskRows m c)

/-- Window 0's block is the whole array of padded products: its one block index is (0, 0) and its extent the array's. -/
theorem block_prod (c : Dev nD) (t : Fin cfg0.N) : (iblk m c 0 t : Vec F S3907x128 .f32) = prodRows m c := by
  obtain rfl := fin_N0 t
  have hz : (fun a => win0_0.index t0_0 a * main_v10.ty.shape.size a) = fun _ => 0 := funext fun a => by fin_cases a <;> decide +kernel
  exact Memref.read_access_unit_zero (Elt F) main_v10 hz (fun a => by rw [congrFun hz a]; simp) (V m c main_v10)

/-- Window 1's block is the whole padded residual. -/
theorem block_res (c : Dev nD) (t : Fin cfg0.N) : (iblk m c 1 t : Vec F S3907x128 .f32) = resRows m c := by
  obtain rfl := fin_N0 t
  have hz : (fun a => win0_1.index t0_0 a * main_v12.ty.shape.size a) = fun _ => 0 := funext fun a => by fin_cases a <;> decide +kernel
  exact Memref.read_access_unit_zero (Elt F) main_v12 hz (fun a => by rw [congrFun hz a]; simp) (V m c main_v12)

/-- Window 2's block is the whole widened mask. -/
theorem block_mask (c : Dev nD) (t : Fin cfg0.N) : (iblk m c 2 t : Vec F S3907x128 .i32) = maskRows m c := by
  obtain rfl := fin_N0 t
  have hz : (fun a => win0_2.index t0_0 a * main_v15.ty.shape.size a) = fun _ => 0 := funext fun a => by fin_cases a <;> decide +kernel
  exact Memref.read_access_unit_zero (Elt F) main_v15 hz (fun a => by rw [congrFun hz a]; simp) (V m c main_v15)

/-- The body's one store covers the [1, 1] staging buffer, so the buffer holds the payload of the three loaded blocks. -/
theorem body_leaves (x0 x1 : Vec F S3907x128 .f32) (x2 : Vec F S3907x128 .i32) : out0_3 x0 x1 x2 = k0_pay1 x0 x1 x2 := by
  unfold out0_3
  rw [View.canon_unit_zero zero_offsets]
  simp only [View.ld_unit_zero (S := S3907x128) zero_offsets]

/-- What the point writes back is the whole [1, 1] array at `stored`. -/
theorem written_back (c : Dev nD) (t : Fin cfg0.N) :
    (dats m 0 c).flushed 3 t = ((cfg0.win 3).blk t).view.read (Elt F) (stored m c) := by
  obtain rfl := fin_N0 t
  show (cfg0.win 3).cut (grid0.coords t0_0) ((dats m 0 c).after 3 t0_0) = _
  rw [after0_3, body_leaves, block_prod m c t0_0, block_res m c t0_0, block_mask m c t0_0]
  have hz : (fun a => win0_3.index t0_0 a * main_v16.ty.shape.size a) = fun _ => 0 := funext fun a => by fin_cases a <;> decide +kernel
  exact (Memref.read_access_unit_zero (Elt F) main_v16 hz (fun a => by rw [congrFun hz a]; simp) (stored m c)).symm

/-- The output array after the run: its one entry is in the one point's block. -/
theorem array_after (c : Dev nD) : (dats m 0 c).arrAt 3 cfg0.N = stored m c :=
  (dats m 0 c).arrAt_eq_of_cover 3 (stored m c) (fun t _ => written_back m c t) fun i =>
    ⟨t0_0, flush0_3 t0_0, by
      show i ∈ ((View.whole main_v16).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 1 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 1 from by decide +kernel]; omega⟩

/-- The one host line after the launch reshapes the [1, 1] array to the scalar result. -/
theorem result_after (c : Dev nD) :
    (Pipeline.afterTail₀ cfgs (dats m) 0 (V0 m) [hostOps1] c main_v17 : S_.Idx → Elt F .f32)
      = shapeCast S_ (stored m c) shapeCasts_S1x1_S_ := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.tc.devRef main_v16) = stored m c :=
    (Pipeline.withArrays_arr spec0 launch0.win.arr_inj c _ _ 3).trans (array_after m c)
  rw [e]
  rfl

/-- THE RUN, READ: every weakly fair execution ends with the scalar result at the reshaped payload of the three padded
    arrays, and with the five arguments as launched. -/
theorem run : θ_run defs (onTc (τ := τ) (main (F := F))) ⟨m, fun _ => 0, ρ⟩ fun r => ∀ c : Dev nD,
      r.2.mem ((c.tc : Thread nD τ).loc main_v17) = shapeCast S_ (stored m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Loss

end
-- ==== Proof.HostStages.lean ====
/-
  The host lines of the kernel's program before its launch, as functions of the argument arrays.

  Row 1 of edge_index is each edge's source node and row 0 its destination. `jnp.take` counts a negative source
  from the end (it adds 500000), asks whether the result lies in [0, 499999], gathers d there, and puts NaN where
  it does not; the products with matrix_values are added into their destination nodes; and the node sums, the
  residual and the mask are each padded from 500000 to 500096 entries (with zero, zero and false) and laid out
  in 3907 rows of 128 lanes, the mask widened to words.
-/
import proofs.«413748_j82978768159400_3_alg».proof.Proof.Gen.KernelIdeal

noncomputable section

namespace Cert.KernelIdeal.Host

open Cert.KernelIdeal Cert.KernelIdeal.Gen Idealize.ShloMosaic

variable {F : FTy → Type} [FloatOps F] [Named F]

/-- Each edge's source node: row 1 of edge_index. -/
def srcOf (ei : IVec S2x16000000 32) : IVec S16000000 32 :=
  shapeCast S16000000 (extractStridedSlice S1x16000000 ![1, 0] ei slices_S2x16000000_S1x16000000_1_0) shapeCasts_S1x16000000_S16000000

/-- Each edge's destination node: row 0 of edge_index. -/
def dstOf (ei : IVec S2x16000000 32) : IVec S16000000 32 :=
  shapeCast S16000000 (extractStridedSlice S1x16000000 ![0, 0] ei slices_S2x16000000_S1x16000000_0_0) shapeCasts_S1x16000000_S16000000

/-- An index vector with each negative index counted from the end of d. -/
def wrapped (s : IVec S16000000 32) : IVec S16000000 32 :=
  select (cmpi .slt s (broadcastInDim S16000000 ![] bcast_S_S16000000 (constantI S_ 32 0#32)))
    (addi s (broadcastInDim S16000000 ![] bcast_S_S16000000 (constantI S_ 32 500000#32))) s

/-- The same as the one-column table of start indices the gather reads. -/
def column (s : IVec S16000000 32) : IVec S16000000x1 32 :=
  broadcastInDim S16000000x1 ![0] bcast_S16000000_S16000000x1_0 (wrapped s)

/-- Whether each start index lies in [0, 499999]. -/
def inBounds (s : IVec S16000000 32) : IVec S16000000 1 :=
  Host.reduce IntOp.andi
    (andi (cmpi .sge (column s) (broadcastInDim S16000000x1 ![] bcast_S_S16000000x1 (constantI S_ 32 0#32)))
      (cmpi .sle (column s) (broadcastInDim S16000000x1 ![0, 1] bcast_S1x1_S16000000x1_0_1
        (broadcastInDim S1x1 ![1] bcast_S1_S1x1_1 (constantI S1 32 499999#32)))))
    (constantI S_ 1 1#1) reducesTo_S16000000x1_S16000000_d1 h_S_

/-- d at each start index. -/
def gatheredAt (d : FVec F S500000 .f32) (s : IVec S16000000 32) : FVec F S16000000 .f32 :=
  Host.gather gather_S500000_S16000000x1_S16000000_n_0_n_n_0_1_1 d (column s)

/-- `jnp.take` in its fill mode: the gathered value where the index is in bounds, NaN elsewhere. -/
def takenAt (d : FVec F S500000 .f32) (s : IVec S16000000 32) : FVec F S16000000 .f32 :=
  select (inBounds s) (gatheredAt d s) (broadcastInDim S16000000 ![] bcast_S_S16000000 (constant S_ .f32 0x7FC00000#32))

/-- Per node, the sum of the updates whose destination it is: scatter-add into zeros. -/
def scattered (dst : IVec S16000000 32) (upd : FVec F S16000000 .f32) : FVec F S500000 .f32 :=
  Host.scatterAdd scatter_S500000_S16000000x1_S16000000_n_0_0_1
    (broadcastInDim S500000 ![] bcast_S_S500000 (constant S_ .f32 0x00000000#32))
    (broadcastInDim S16000000x1 ![0] bcast_S16000000_S16000000x1_0 dst) upd

/-- The node sums of the kernel's program: matrix_values times what is taken of d at the sources, added into the destinations. -/
def nodeSums (d : FVec F S500000 .f32) (ei : IVec S2x16000000 32) (mv : FVec F S16000000 .f32) : FVec F S500000 .f32 :=
  scattered (dstOf ei) (mulf mv (takenAt d (srcOf ei)))

/-- A float vector over the nodes padded with (the float of the integer) zero to 500096 and cut into rows of 128. -/
def padRows (x : FVec F S500000 .f32) : FVec F S3907x128 .f32 :=
  shapeCast S3907x128 (pad S500096 ![0] ![96] ![0] x (sitofp (F := F) .f32 (constantI S_ 32 0#32)) pads_S500000_S500096_0960 h_S_)
    shapeCasts_S500096_S3907x128

/-- The mask padded with false (the bit "0 ≠ 0"), cut into rows of 128 and widened to words. -/
def maskRows (mk : IVec S500000 1) : IVec S3907x128 32 :=
  extui 32 (shapeCast S3907x128
    (pad S500096 ![0] ![96] ![0] mk (cmpi .ne (constantI S_ 32 0#32) (broadcastInDim S_ ![] bcast_S_S_ (constantI S_ 32 0#32)))
      pads_S500000_S500096_0960 h_S_) shapeCasts_S500096_S3907x128) natLt_1_32

end Cert.KernelIdeal.Host

end
-- ==== Proof.HostRows.lean ====
/-
  The three arrays the launch stages, read off the host lines before it: the padded rows of the node sums, of the
  residual and of the mask, as functions of the program's arguments. The lines are read one stretch at a time — the two
  rows of edge_index, the take, the scatter-add and its padding — each over whatever the buffers held before it.
-/
import proofs.«413748_j82978768159400_3_alg».proof.Proof.HostStages
import proofs.«413748_j82978768159400_3_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F] [Named F]

/-- Running one list of host operations after another is running their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

section Stretches

variable (W : Valuation τ sig (Elt F))

/-- The first stretch cuts edge_index into its two rows … -/
theorem slices_src : (after hostOps0 W (Proc.devRef .tc main_v3) : IVec S16000000 32) = srcOf (W (Proc.devRef .tc main_arg1)) := by
  after_results
  rfl
theorem slices_dst : (after hostOps0 W (Proc.devRef .tc main_v1) : IVec S16000000 32) = dstOf (W (Proc.devRef .tc main_arg1)) := by
  after_results
  rfl
/-- … and leaves d and matrix_values alone. -/
theorem slices_keep_d : after hostOps0 W (Proc.devRef .tc main_arg0) = W (Proc.devRef .tc main_arg0) := by
  after_results
theorem slices_keep_mv : after hostOps0 W (Proc.devRef .tc main_arg2) = W (Proc.devRef .tc main_arg2) := by
  after_results

/-- The second stretch is `jnp.take` of d at the sources. Its last operation is the select between what was gathered
    and NaN; the first twenty-one make the select's three operands. -/
abbrev fillSelect : HloOp τ sig (Elt F) :=
  StableHlo.TRef.ternary (.of main_call0_v12 : StableHlo.TRef sig ⟨S16000000, .i1⟩) (.of main_call0_v13 : StableHlo.TRef sig ⟨S16000000, .f32⟩)
    (.of main_call0_v14 : StableHlo.TRef sig ⟨S16000000, .f32⟩) (.of main_v4 : StableHlo.TRef sig ⟨S16000000, .f32⟩) select

theorem take_split : (hostOps0_1 : List (HloOp τ sig (Elt F))) = List.take 21 hostOps0_1 ++ [fillSelect] := rfl

theorem take_two_parts : after hostOps0_1 W = after [fillSelect] (after (List.take 21 hostOps0_1) W) :=
  (congrArg (fun l => after l W) take_split).trans (after_append _ _ W)

/-- The select reads its three operands where the operations before it left them. -/
theorem select_result : (after [fillSelect] W (Proc.devRef .tc main_v4) : FVec F S16000000 .f32)
    = select (W (Proc.devRef .tc main_call0_v12) : IVec S16000000 1) (W (Proc.devRef .tc main_call0_v13) : FVec F S16000000 .f32)
        (W (Proc.devRef .tc main_call0_v14) : FVec F S16000000 .f32) := by
  after_results
  rfl

/-- The select writes none of its operands: they are what the whole stretch leaves there. -/
theorem head_mask : after (List.take 21 hostOps0_1) W (Proc.devRef .tc main_call0_v12) = after hostOps0_1 W (Proc.devRef .tc main_call0_v12) := by
  rw [take_two_parts W]
  after_results
theorem head_gathered : after (List.take 21 hostOps0_1) W (Proc.devRef .tc main_call0_v13) = after hostOps0_1 W (Proc.devRef .tc main_call0_v13) := by
  rw [take_two_parts W]
  after_results
theorem head_fill : after (List.take 21 hostOps0_1) W (Proc.devRef .tc main_call0_v14) = after hostOps0_1 W (Proc.devRef .tc main_call0_v14) := by
  rw [take_two_parts W]
  after_results

/-- The bounds mask, the gathered values and the NaN fill, each read off the stretch. -/
theorem take_mask : (after hostOps0_1 W (Proc.devRef .tc main_call0_v12) : IVec S16000000 1) = inBounds (W (Proc.devRef .tc main_v3)) := by
  after_results
  simp only [cast_eq]
  rfl
theorem take_gathered : (after hostOps0_1 W (Proc.devRef .tc main_call0_v13) : FVec F S16000000 .f32)
    = gatheredAt (W (Proc.devRef .tc main_arg0)) (W (Proc.devRef .tc main_v3)) := by
  after_results
  rfl
theorem take_fill : (after hostOps0_1 W (Proc.devRef .tc main_call0_v14) : FVec F S16000000 .f32)
    = broadcastInDim S16000000 ![] bcast_S_S16000000 (constant S_ .f32 0x7FC00000#32) := by
  after_results
  rfl

theorem take_result : (after hostOps0_1 W (Proc.devRef .tc main_v4) : FVec F S16000000 .f32)
    = takenAt (W (Proc.devRef .tc main_arg0)) (W (Proc.devRef .tc main_v3)) := by
  rw [take_two_parts W, select_result, head_mask, head_gathered, head_fill, take_mask, take_gathered, take_fill]
  rfl
/-- … which leaves the destinations and matrix_values alone. -/
theorem take_keep_dst : after hostOps0_1 W (Proc.devRef .tc main_v1) = W (Proc.devRef .tc main_v1) := by
  after_results
theorem take_keep_mv : after hostOps0_1 W (Proc.devRef .tc main_arg2) = W (Proc.devRef .tc main_arg2) := by
  after_results

/-- The next three stretches multiply, scatter-add, pad and cut into rows. -/
theorem scatter_pad_result :
    (after hostOps0_4 (after hostOps0_3 (after hostOps0_2 W)) (Proc.devRef .tc main_v10) : FVec F S3907x128 .f32)
      = padRows (scattered (W (Proc.devRef .tc main_v1)) (mulf (W (Proc.devRef .tc main_arg2)) (W (Proc.devRef .tc main_v4)))) := by
  after_results
  rfl

/-- The last four stretches (the residual's and the mask's padding) leave the rows of node sums alone. -/
theorem rest_keep_prod :
    after hostOps0_8 (after hostOps0_7 (after hostOps0_6 (after hostOps0_5 W))) (Proc.devRef .tc main_v10) = W (Proc.devRef .tc main_v10) := by
  after_results

end Stretches

variable (m : (ℓ : Loc nD τ sig) → Buf (Elt F) ℓ)

/-- Window 1's array: the residual, padded and cut into rows. -/
theorem res_rows (c : Dev nD) :
    (V m c main_v12 : Vec F S3907x128 .f32) = padRows (m ((c.tc : Thread nD τ).loc main_arg4)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- Window 2's array: the mask, padded, cut into rows and widened. -/
theorem mask_rows (c : Dev nD) :
    (V m c main_v15 : Vec F S3907x128 .i32) = maskRows (m ((c.tc : Thread nD τ).loc main_arg3)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- Window 0's array: the node sums of the taken products, padded and cut into rows. -/
theorem prod_rows (c : Dev nD) :
    (V m c main_v10 : Vec F S3907x128 .f32)
      = padRows (nodeSums (m ((c.tc : Thread nD τ).loc main_arg0)) (m ((c.tc : Thread nD τ).loc main_arg1)) (m ((c.tc : Thread nD τ).loc main_arg2))) := by
  dsimp only [V, V0]
  simp only [List.flatten_cons, List.flatten_nil, List.append_nil, after_append]
  rw [rest_keep_prod, scatter_pad_result, take_keep_dst, slices_dst, take_keep_mv, slices_keep_mv, take_result, slices_keep_d, slices_src]
  rfl

end Cert.KernelIdeal.Host

end
-- ==== Proof.LibPaddedSum.lean ====
/-
  A sequence of N entries laid out row-major in a rectangle of R rows and C lanes that is at least N long,
  the entries past the N-th being zero: the sum of the row sums of the rectangle is the sum of the N entries.

  A reduction that is done lane axis first and row axis second over a zero-padded, lane-dense layout of a
  vector meets this: entry j sits in row j / C at lane j % C, the rectangle is the sequence up to R · C, and
  what lies between N and R · C adds nothing. Stated over the natural-number positions so that no index of a
  literal extent is ever built, and in any commutative additive monoid (the extended reals are one).
-/
import Mathlib.Algebra.BigOperators.Fin
import Mathlib.Algebra.BigOperators.Intervals
import Mathlib.Logic.Equiv.Fin.Basic

namespace Cert.PaddedSum

open Finset

variable {M : Type*} [AddCommMonoid M]

/-- The rows of lanes of an R × C rectangle, summed row by row, are the sequence summed up to R · C:
    position (r, l) is the r · C + l-th. -/
theorem sum_rows_lanes (R C : ℕ) (g : ℕ → M) :
    ∑ r : Fin R, ∑ l : Fin C, g (r.val * C + l.val) = ∑ k ∈ range (R * C), g k := by
  rw [← Fin.sum_univ_eq_sum_range g (R * C), ← Fintype.sum_prod_type' (fun (r : Fin R) (l : Fin C) => g (r.val * C + l.val)),
    ← Equiv.sum_comp (finProdFinEquiv (m := R) (n := C)) (fun k : Fin (R * C) => g k.val)]
  refine Fintype.sum_congr _ _ fun p => ?_
  rw [finProdFinEquiv_apply_val, Nat.mul_comm C, Nat.add_comm]

/-- … and when the sequence is zero from N on, with N ≤ R · C, that is the sum of its first N entries. -/
theorem sum_rows_lanes_of_zero_tail (R C N : ℕ) (hN : N ≤ R * C) (g : ℕ → M)
    (htail : ∀ k, N ≤ k → k < R * C → g k = 0) :
    ∑ r : Fin R, ∑ l : Fin C, g (r.val * C + l.val) = ∑ j : Fin N, g j.val := by
  rw [sum_rows_lanes, Fin.sum_univ_eq_sum_range g N, ← sum_range_add_sum_Ico g hN,
    sum_eq_zero (fun k hk => htail k (mem_Ico.1 hk).1 (mem_Ico.1 hk).2), add_zero]

end Cert.PaddedSum
-- ==== Proof.NodeTerm.lean ====
/-
  One node's term of the masked L1 loss on the extended reals, and a sum over the indices of a one-axis vector as a
  sum over its positions.
-/
import Idealize.ShloMosaic.Lib.ValueIdx
import Idealize.ShloMosaic.PureOps.Ideal

noncomputable section

namespace Cert.NodeLoss

open Idealize.ShloMosaic Idealize.ShloMosaic.ValueIdx

/-- One node's term: how far the residual s is from the node sum a where the mask bit b is set, from zero where it is
    not; |x| on the extended reals is max x (−x). -/
def absErr (b : BitVec 1) (a s : EReal) : EReal := max (Scalar.select b a 0 - s) (-(Scalar.select b a 0 - s))

/-- A padding position (bit clear, both entries zero) contributes nothing. -/
theorem absErr_pad : absErr 0#1 0 0 = 0 := by
  unfold absErr
  rw [select_zero]
  simp

/-- An index of a one-axis shape is its one coordinate. -/
def idxEquiv1 {n : Nat} : (⟨1, ![n]⟩ : Shape).Idx ≃ Fin n where
  toFun i := i 0
  invFun := ix1
  left_inv i := (eq_ix1 i).symm
  right_inv _ := rfl

/-- … so a sum over the indices is the sum over the positions. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.NodeLoss

end
-- ==== Proof.PayloadSum.lean ====
/-
  The body's arithmetic at the ideal values.

  The body masks the node sums (zero where the mask word is zero), subtracts the residual, takes absolute values, adds
  up each row's 128 lanes, adds up the 3907 row sums, and multiplies by the reciprocal the certificate names 1/500000.
  Over the padded rows of a node vector, a residual and a mask, entry (r, l) is position r · 128 + l of the padded
  vectors: a node's own term below position 500000, and |0 − 0| = 0 on the 96 padding positions. So the result is
  the sum of the 500000 node terms, times 1/500000.
-/
import proofs.«413748_j82978768159400_3_alg».proof.Proof.Gen.KernelIdeal.Skeleton
import proofs.«413748_j82978768159400_3_alg».proof.Proof.HostStages
import proofs.«413748_j82978768159400_3_alg».proof.Proof.LibPaddedSum
import proofs.«413748_j82978768159400_3_alg».proof.Proof.NodeTerm
import Idealize.ShloMosaic.Lib.ValueIdx
import Idealize.ShloMosaic.Lib.Pipeline.Value
import Idealize.ShloMosaic.Lib.KernelVsHost
import Idealize.ShloMosaic.PureOps.Ideal.Laws
import Idealize.ShloMosaic.PureOps.IdealRules

noncomputable section

namespace Cert.KernelIdeal.LossValue

open Cert.KernelIdeal Cert.KernelIdeal.Gen Cert.KernelIdeal.Host Idealize.ShloMosaic Idealize.ShloMosaic.ValueIdx Cert.NodeLoss

/-- The reciprocal the body multiplies by denotes the rational 1/500000, by the certificate's table. -/
theorem inv_n : Named.named (F := Ideal) κ "inv_500000" (φ := .f32) 0x360637BD#32 = ((1 / 500000 : ℝ) : EReal) :=
  IdealRules.named_const.ideal_named_scalar _ _ _ _ rfl

/-- The entrywise part of the body: mask, subtract, absolute value (with the body's three same-shape casts). -/
def diffs (x0 x1 : Vec Ideal S3907x128 .f32) (x2 : Vec Ideal S3907x128 .i32) : FVec Ideal S3907x128 .f32 :=
  absf (subf (select (cmpi .ne (shapeCast S3907x128 x2 shapeCasts_S3907x128_S3907x128) (constantI S3907x128 32 0#32))
    (shapeCast S3907x128 x0 shapeCasts_S3907x128_S3907x128) (broadcast S3907x128 (Scalar.ofBits (F := Ideal) .f32 0x00000000#32)))
    (shapeCast S3907x128 x1 shapeCasts_S3907x128_S3907x128))

/-- The body's payload is the two reductions of that, reshaped, times the named reciprocal. -/
theorem payload_eq (x0 x1 : Vec Ideal S3907x128 .f32) (x2 : Vec Ideal S3907x128 .i32) :
    k0_pay1 (F := Ideal) x0 x1 x2
      = mulf (shapeCast S1x1 (multiReduction .add [0] S1 (shapeCast S3907x1
          (multiReduction .add [1] S3907 (diffs x0 x1 x2) 0x00000000#32 reduces_S3907x128_S3907 (.inl rfl) rfl)
          shapeCasts_S3907_S3907x1) 0x00000000#32 reduces_S3907x1_S1 (.inl rfl) rfl) shapeCasts_S1_S1x1)
        (broadcast S1x1 (Named.named κ "inv_500000" 0x360637BD#32)) := rfl

/-- A lane sum: entry r of the reduced vector is the sum of row r. -/
theorem lanes_summed (w : FVec Ideal S3907x128 .f32) (r : Fin 3907) :
    multiReduction (F := Ideal) .add [1] S3907 w 0x00000000#32 reduces_S3907x128_S3907 (.inl rfl) rfl (ix1 r)
      = ∑ l : Fin 128, w (ix2 r l) := by
  refine (Ideal.multiReduction_add_single w 0x00000000#32 reduces_S3907x128_S3907 (.inl rfl) rfl (ix1 r)).trans ?_
  exact Finset.sum_congr rfl fun l _ => congrArg w (funext fun a => match a with | ⟨0, _⟩ => rfl | ⟨1, _⟩ => rfl)

/-- The sum down the one column. -/
theorem rows_summed (u : FVec Ideal S3907x1 .f32) :
    multiReduction (F := Ideal) .add [0] S1 u 0x00000000#32 reduces_S3907x1_S1 (.inl rfl) rfl (ix1 0)
      = ∑ r : Fin 3907, u (ix2 r 0) := by
  refine (Ideal.multiReduction_add_single u 0x00000000#32 reduces_S3907x1_S1 (.inl rfl) rfl (ix1 0)).trans ?_
  exact Finset.sum_congr rfl fun r _ => congrArg u (funext fun a => match a with | ⟨0, _⟩ => rfl | ⟨1, _⟩ => rfl)

/-- Lane axis first, row axis second: the two reductions together add up every entry. -/
theorem two_stage_sum (w : FVec Ideal S3907x128 .f32) :
    shapeCast S1x1 (multiReduction (F := Ideal) .add [0] S1 (shapeCast S3907x1
        (multiReduction (F := Ideal) .add [1] S3907 w 0x00000000#32 reduces_S3907x128_S3907 (.inl rfl) rfl)
        shapeCasts_S3907_S3907x1) 0x00000000#32 reduces_S3907x1_S1 (.inl rfl) rfl) shapeCasts_S1_S1x1 (ix2 0 0)
      = ∑ r : Fin 3907, ∑ l : Fin 128, w (ix2 r l) := by
  refine (shapeCast_apply _ shapeCasts_S1_S1x1 (ix2 0 0) (ix1 0) (by rw [Shape.rowMajor_val_one, Shape.rowMajor_val_two]; rfl)).trans ?_
  refine (rows_summed _).trans ?_
  refine Finset.sum_congr rfl fun r _ => ?_
  refine (shapeCast_apply _ shapeCasts_S3907_S3907x1 (ix2 r 0) (ix1 r) (by rw [Shape.rowMajor_val_one, Shape.rowMajor_val_two]; show r.val = r.val * 1 + 0; omega)).trans ?_
  exact lanes_summed w r

/-- An entry of the body's absolute differences is the node term of the three loaded entries, the mask word tested against zero. -/
theorem diffs_apply (x0 x1 : Vec Ideal S3907x128 .f32) (x2 : Vec Ideal S3907x128 .i32) (r : Fin 3907) (l : Fin 128) :
    diffs x0 x1 x2 (ix2 r l) = absErr (IntOp.cmpi .ne (x2 (ix2 r l)) 0#32) (x0 (ix2 r l)) (x1 (ix2 r l)) := by
  unfold diffs
  rw [shapeCast_self, shapeCast_self, shapeCast_self]
  show FloatOps.absf (FloatOps.subf (Scalar.select (IntOp.cmpi .ne (x2 (ix2 r l)) 0#32) (x0 (ix2 r l)) (Ideal.ofBits .f32 0x00000000#32)) (x1 (ix2 r l))) = _
  rw [Ideal.ofBits_zero_f32]
  rfl

/-- Row r, lane l is position r · 128 + l of the padded vector, which has 500096 of them. -/
theorem flat_lt (r : Fin 3907) (l : Fin 128) : r.val * 128 + l.val < 500096 := by
  have := r.isLt; have := l.isLt; omega

/-- Below position 500000 the padded rows hold the vector itself. -/
theorem padRows_inside (x : FVec Ideal S500000 .f32) (r : Fin 3907) (l : Fin 128) (h : r.val * 128 + l.val < 500000) :
    padRows (F := Ideal) x (ix2 r l) = x (ix1 ⟨r.val * 128 + l.val, h⟩) := by
  unfold padRows
  refine (shapeCast_apply _ shapeCasts_S500096_S3907x128 (ix2 r l) (ix1 ⟨r.val * 128 + l.val, flat_lt r l⟩)
    (by rw [Shape.rowMajor_val_one, Shape.rowMajor_val_two]; rfl)).trans ?_
  exact pad_apply_of_inside ![0] ![96] ![0] x _ pads_S500000_S500096_0960 h_S_ _ (ix1 ⟨_, h⟩)
    (fun a => match a with | ⟨0, _⟩ => by show r.val * 128 + l.val = 0 + (r.val * 128 + l.val) * (0 + 1); omega)

/-- From position 500000 on they hold the padding value, zero. -/
theorem padRows_outside (x : FVec Ideal S500000 .f32) (r : Fin 3907) (l : Fin 128) (h : 500000 ≤ r.val * 128 + l.val) :
    padRows (F := Ideal) x (ix2 r l) = 0 := by
  unfold padRows
  refine (shapeCast_apply _ shapeCasts_S500096_S3907x128 (ix2 r l) (ix1 ⟨r.val * 128 + l.val, flat_lt r l⟩)
    (by rw [Shape.rowMajor_val_one, Shape.rowMajor_val_two]; rfl)).trans ?_
  refine (pad_apply_of_not_inside ![0] ![96] ![0] x _ pads_S500000_S500096_0960 h_S_ (ix1 ⟨r.val * 128 + l.val, flat_lt r l⟩) 0
    (by show ¬(0 ≤ r.val * 128 + l.val ∧ (r.val * 128 + l.val - 0) % (0 + 1) = 0 ∧ (r.val * 128 + l.val - 0) / (0 + 1) < 500000); omega)).trans ?_
  show (((0#32 : BitVec 32).toInt : ℝ) : EReal) = 0
  simp

/-- Below position 500000 the mask rows hold the mask bit widened to a word. -/
theorem maskRows_inside (mk : IVec S500000 1) (r : Fin 3907) (l : Fin 128) (h : r.val * 128 + l.val < 500000) :
    maskRows mk (ix2 r l) = (mk (ix1 ⟨r.val * 128 + l.val, h⟩)).setWidth 32 := by
  unfold maskRows
  rw [extui_apply]
  refine congrArg (BitVec.setWidth 32) ?_
  refine (shapeCast_apply _ shapeCasts_S500096_S3907x128 (ix2 r l) (ix1 ⟨r.val * 128 + l.val, flat_lt r l⟩)
    (by rw [Shape.rowMajor_val_one, Shape.rowMajor_val_two]; rfl)).trans ?_
  exact pad_apply_of_inside ![0] ![96] ![0] mk _ pads_S500000_S500096_0960 h_S_ _ (ix1 ⟨_, h⟩)
    (fun a => match a with | ⟨0, _⟩ => by show r.val * 128 + l.val = 0 + (r.val * 128 + l.val) * (0 + 1); omega)

/-- From position 500000 on they hold the word zero: the padding bit is "0 ≠ 0". -/
theorem maskRows_outside (mk : IVec S500000 1) (r : Fin 3907) (l : Fin 128) (h : 500000 ≤ r.val * 128 + l.val) :
    maskRows mk (ix2 r l) = 0#32 := by
  unfold maskRows
  rw [extui_apply]
  refine (congrArg (BitVec.setWidth 32) ((shapeCast_apply _ shapeCasts_S500096_S3907x128 (ix2 r l) (ix1 ⟨r.val * 128 + l.val, flat_lt r l⟩)
    (by rw [Shape.rowMajor_val_one, Shape.rowMajor_val_two]; rfl)).trans
    (pad_apply_of_not_inside ![0] ![96] ![0] mk _ pads_S500000_S500096_0960 h_S_ (ix1 ⟨r.val * 128 + l.val, flat_lt r l⟩) 0
      (by show ¬(0 ≤ r.val * 128 + l.val ∧ (r.val * 128 + l.val - 0) % (0 + 1) = 0 ∧ (r.val * 128 + l.val - 0) / (0 + 1) < 500000); omega)))).trans ?_
  rfl

/-- A bit widened to a word differs from zero exactly when it is set. -/
theorem ne_zero_of_widened : ∀ b : BitVec 1, IntOp.cmpi .ne (b.setWidth 32) 0#32 = b := by decide

/-- The node terms as a sequence over every position of the padded layout: zero from position 500000 on. -/
def termAt (ad res : FVec Ideal S500000 .f32) (mk : IVec S500000 1) (k : ℕ) : EReal :=
  if h : k < 500000 then absErr (mk (ix1 ⟨k, h⟩)) (ad (ix1 ⟨k, h⟩)) (res (ix1 ⟨k, h⟩)) else 0

/-- THE KERNEL'S VALUE at the ideal values: over the padded rows of any node vector `ad`, residual `res` and mask `mk`,
    the body's result, its unit axes dropped, is the sum over the 500000 nodes of the node terms, times 1/500000 —
    the 96 padding positions each contribute |0 − 0| = 0. -/
theorem kernel_value (ad res : FVec Ideal S500000 .f32) (mk : IVec S500000 1) (i : S_.Idx) :
    shapeCast S_ (k0_pay1 (F := Ideal) (padRows ad) (padRows res) (maskRows mk)) shapeCasts_S1x1_S_ i
      = (∑ j : Fin 500000, absErr (mk (ix1 j)) (ad (ix1 j)) (res (ix1 j))) * ((1 / 500000 : ℝ) : EReal) := by
  refine (shapeCast_apply _ shapeCasts_S1x1_S_ i (ix2 0 0) (by
    rw [Shape.rowMajor_val_two]
    have h := (Shape.rowMajor S_ i).isLt
    have e : S_.numel = 1 := by decide
    show 0 * 1 + 0 = _
    omega)).trans ?_
  refine (congrFun (payload_eq _ _ _) (ix2 0 0)).trans ?_
  show (shapeCast S1x1 _ shapeCasts_S1_S1x1 (ix2 0 0)) * Named.named (F := Ideal) κ "inv_500000" (φ := .f32) 0x360637BD#32 = _
  rw [inv_n, two_stage_sum]
  refine congrArg (· * ((1 / 500000 : ℝ) : EReal)) ?_
  have hg : ∀ (r : Fin 3907) (l : Fin 128), diffs (padRows ad) (padRows res) (maskRows mk) (ix2 r l) = termAt ad res mk (r.val * 128 + l.val) := by
    intro r l
    rw [diffs_apply]
    by_cases h : r.val * 128 + l.val < 500000
    · rw [padRows_inside ad r l h, padRows_inside res r l h, maskRows_inside mk r l h, ne_zero_of_widened]
      rw [termAt, dif_pos h]
    · have h' : 500000 ≤ r.val * 128 + l.val := Nat.le_of_not_lt h
      rw [padRows_outside ad r l h', padRows_outside res r l h', maskRows_outside mk r l h']
      show absErr (IntOp.cmpi .ne 0#32 0#32) 0 0 = _
      rw [show IntOp.cmpi .ne (0#32 : BitVec 32) 0#32 = 0#1 from by decide, absErr_pad]
      rw [termAt, dif_neg h]
  calc ∑ r : Fin 3907, ∑ l : Fin 128, diffs (padRows ad) (padRows res) (maskRows mk) (ix2 r l)
      = ∑ r : Fin 3907, ∑ l : Fin 128, termAt ad res mk (r.val * 128 + l.val) :=
        Finset.sum_congr rfl fun r _ => Finset.sum_congr rfl fun l _ => hg r l
    _ = ∑ j : Fin 500000, termAt ad res mk j.val :=
        Cert.PaddedSum.sum_rows_lanes_of_zero_tail 3907 128 500000 (by norm_num) (termAt ad res mk) (fun k hk _ => dif_neg (by omega))
    _ = ∑ j : Fin 500000, absErr (mk (ix1 j)) (ad (ix1 j)) (res (ix1 j)) :=
        Finset.sum_congr rfl fun j _ => dif_pos j.isLt

end Cert.KernelIdeal.LossValue

end
-- ==== Proof.RefValue.lean ====
/-
  The reference's result at the ideal values: with Ad the scatter-added products (whatever they are), the mean is the
  sum over the 500000 nodes of the node terms |where(mask, Ad, 0) − residual|, divided by 500000 — which on every
  extended real is the product with 1/500000.
-/
import proofs.«413748_j82978768159400_3_alg».proof.Proof.Gen.ReferenceIdeal.Read
import proofs.«413748_j82978768159400_3_alg».proof.Proof.NodeTerm
import Idealize.ShloMosaic.PureOps.Ideal.Laws

noncomputable section

namespace Cert.ReferenceIdeal.LossValue

open Cert.ReferenceIdeal Cert.ReferenceIdeal.Gen Cert.ReferenceIdeal.Read Idealize.ShloMosaic Idealize.ShloMosaic.ValueIdx Cert.NodeLoss

/-- The divisor's pattern is the real number 500000. -/
theorem divisor : Ideal.ofBits .f32 0x48F42400#32 = ((500000 : ℝ) : EReal) := by
  simp [Ideal.ofBits, Ideal.ieee, -EReal.coe_mul]
  norm_num

/-- An entry of the vector the reference sums is the node term of the mask bit, the node sum and the residual there. -/
theorem node_term (x0 : (⟨S500000, .f32⟩ : BufTy).Contents (Elt Ideal)) (x1 : (⟨S2x16000000, .i32⟩ : BufTy).Contents (Elt Ideal))
    (x2 : (⟨S16000000, .f32⟩ : BufTy).Contents (Elt Ideal)) (x3 : (⟨S500000, .i1⟩ : BufTy).Contents (Elt Ideal))
    (x4 : (⟨S500000, .f32⟩ : BufTy).Contents (Elt Ideal)) (j : S500000.Idx) :
    val_main_v17 (F := Ideal) x0 x1 x2 x3 x4 j = absErr (x3 j) (val_main_v14 (F := Ideal) x0 x1 x2 j) (x4 j) := by
  rw [val_main_v17_apply, val_main_v16_apply, val_main_v15_apply, val_main_call0_v0_apply, val_main_cst_1_apply]
  unfold absErr
  rw [← Ideal.ofBits_zero_f32]
  rfl

/-- THE REFERENCE'S VALUE: the sum of the node terms over the nodes, times 1/500000. -/
theorem reference_value (x0 : (⟨S500000, .f32⟩ : BufTy).Contents (Elt Ideal)) (x1 : (⟨S2x16000000, .i32⟩ : BufTy).Contents (Elt Ideal))
    (x2 : (⟨S16000000, .f32⟩ : BufTy).Contents (Elt Ideal)) (x3 : (⟨S500000, .i1⟩ : BufTy).Contents (Elt Ideal))
    (x4 : (⟨S500000, .f32⟩ : BufTy).Contents (Elt Ideal)) (i : S_.Idx) :
    val_main_v19 (F := Ideal) x0 x1 x2 x3 x4 i
      = (∑ j : Fin 500000, absErr (x3 (ix1 j)) (val_main_v14 (F := Ideal) x0 x1 x2 (ix1 j)) (x4 (ix1 j))) * ((1 / 500000 : ℝ) : EReal) := by
  rw [val_main_v19_apply, val_main_v18_apply, val_main_cst_2_apply, val_main_cst_3_apply]
  show Ideal.div (Ideal.ofBits .f32 0x00000000#32 + ∑ j : S500000.Idx, val_main_v17 (F := Ideal) x0 x1 x2 x3 x4 j) (Ideal.ofBits .f32 0x48F42400#32) = _
  rw [Ideal.ofBits_zero_f32, zero_add, divisor, Ideal.div_coe (by norm_num : (500000 : ℝ) ≠ 0), sum_idx1]
  exact congrArg (· * ((1 / 500000 : ℝ) : EReal)) (Finset.sum_congr rfl fun j _ => node_term x0 x1 x2 x3 x4 (ix1 j))

end Cert.ReferenceIdeal.LossValue

end
-- ==== Proof.LibAndReduce.lean ====
/-
  A reduction by `and` over bits that are all set, started from a set bit, is set: the converse of reading a printed
  `jnp.all` back. The host's reduce is a left fold over the operand's indices that reduce into the result index.
-/
import Idealize.ShloMosaic.Lib.Affine
import Idealize.ShloMosaic.PureOps.Reduce

namespace Cert.AndReduce

open Idealize.ShloMosaic

/-- A left fold by `and` from a set bit over set bits stays set. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_of_all f l _ (by show IntOp.andi init (f a) = 1#1; rw [h, hl a List.mem_cons_self]; decide) (fun n hn => hl n (List.mem_cons_of_mem _ hn))

variable {s t u : Shape} {axes : List (Fin s.rank)}

/-- A `stablehlo.reduce` by `and`, from an initial value that is set, of an operand whose every bit is set, is set at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  unfold Host.reduce
  exact foldl_andi_of_all (fun n => x (s.rowMajor.symm n)) _ _ hinit (fun n _ => hx _)

end Cert.AndReduce
-- ==== Proof.InRange.lean ====
/-
  `jnp.take` under an index in range. When every index s of the vector satisfies 0 ≤ s < 500000 (as signed words),
  counting from the end does nothing (s is not negative), the bounds test 0 ≤ s ≤ 499999 passes everywhere, and the
  fill-mode select keeps the gathered value everywhere: what is taken is what is gathered.
-/
import proofs.«413748_j82978768159400_3_alg».proof.Proof.HostStages
import proofs.«413748_j82978768159400_3_alg».proof.Proof.LibAndReduce
import Idealize.ShloMosaic.Lib.ValueIdx

noncomputable section

namespace Cert.KernelIdeal.Host

open Cert.KernelIdeal Cert.KernelIdeal.Gen Idealize.ShloMosaic Idealize.ShloMosaic.ValueIdx

variable {F : FTy → Type} [FloatOps F] [Named F]

/-- A word in [0, 500000) is not negative, so it is its own wrapped index, and it passes both bounds tests. -/
theorem word_in_range (s : BitVec 32) (h0 : 0 ≤ s.toInt) (h1 : s.toInt < 500000) :
    Scalar.select (IntOp.cmpi .slt s 0#32) (IntOp.addi s 500000#32) s = s
      ∧ IntOp.cmpi .sge s 0#32 = 1#1 ∧ IntOp.cmpi .sle s 499999#32 = 1#1 := by
  have e0 : (0#32 : BitVec 32).toInt = 0 := by decide
  have e1 : (499999#32 : BitVec 32).toInt = 499999 := by decide
  have hneg : IntOp.cmpi .slt s 0#32 = 0#1 := eq_zero_of_ne_one fun h => by
    have := IntOp.cmpi_slt.mp h
    omega
  refine ⟨by rw [hneg, select_zero], IntOp.cmpi_sge.mpr (by omega), IntOp.cmpi_sle.mpr (by omega)⟩

/-- Under the index range every start index is in bounds. -/
theorem in_bounds_all (s : IVec S16000000 32)
    (hs : ∀ e : S16000000.Idx, 0 ≤ (s e).toInt ∧ (s e).toInt < 500000) (e : S16000000.Idx) :
    inBounds s e = 1#1 := by
  unfold inBounds
  refine Cert.AndReduce.reduce_andi_of_all _ _ _ _ rfl (fun i => ?_) e
  obtain ⟨k, hk⟩ : ∃ k : S16000000.Idx, column s i = wrapped s k := ⟨_, rfl⟩
  show IntOp.andi (IntOp.cmpi .sge (column s i) 0#32) (IntOp.cmpi .sle (column s i) 499999#32) = 1#1
  rw [hk]
  obtain ⟨hw, hge, hle⟩ := word_in_range (s k) (hs k).1 (hs k).2
  have hwk : wrapped s k = s k := hw
  rw [hwk, hge, hle]
  decide

/-- … so the fill-mode take is the plain gather. -/
theorem takenAt_eq_gatheredAt (d : FVec F S500000 .f32) (s : IVec S16000000 32)
    (hs : ∀ e : S16000000.Idx, 0 ≤ (s e).toInt ∧ (s e).toInt < 500000) :
    takenAt d s = gatheredAt d s := by
  funext e
  unfold takenAt
  rw [select_apply, in_bounds_all s hs e, select_one]

end Cert.KernelIdeal.Host

end
-- ==== Proof.PreDecode.lean ====
/-
  The precondition read back. Its last two conjuncts are `jnp.all(edge_index[1] >= 0)` and
  `jnp.all(edge_index[1] < 500000)`: every edge's source node, as a signed word, lies in [0, 500000) — the indices of d.
-/
import proofs.«413748_j82978768159400_3_alg».proof.Defs
import proofs.«413748_j82978768159400_3_alg».proof.Proof.Gen.Pre_finite_inputs
import proofs.«413748_j82978768159400_3_alg».proof.Proof.HostStages
import Idealize.ShloMosaic.Lib.ReduceAll
import Idealize.ShloMosaic.Lib.ValueIdx

noncomputable section

namespace Cert.KernelIdeal.Host

open Cert.KernelIdeal Cert.KernelIdeal.Gen Idealize.ShloMosaic Idealize.ShloMosaic.TcCoe Idealize.ShloMosaic.ValueIdx Idealize.SL.Sem

instance : Subsingleton Cert.Pre_finite_inputs.S_.Idx := ⟨fun a b => funext fun d => d.elim0⟩

/-- Under the precondition every edge's source is a node index. -/
theorem src_in_range (m : (ℓ : Loc nD τ sig) → Buf (Elt Ideal) ℓ) (h : Cert.Pre_KernelIdeal m) (c : Dev nD) (e : S16000000.Idx) :
    0 ≤ (srcOf (m ((c.tc : Thread nD τ).loc main_arg1)) e).toInt
      ∧ (srcOf (m ((c.tc : Thread nD τ).loc main_arg1)) e).toInt < 500000 := by
  have e0 := congrFun (h c) ix0
  unfold Cert.Pre_finite_inputs.fn at e0
  dsimp only at e0
  unfold Cert.Pre_finite_inputs.fn_part1 at e0
  dsimp only at e0
  obtain ⟨h19, h24⟩ := IntOp.andi_eq_one.mp e0
  obtain ⟨-, h18⟩ := IntOp.andi_eq_one.mp h19
  have g0 := Host.reduce_andi_all _ _ _ _ ix0 h18 e
  have g1 := Host.reduce_andi_all _ _ _ _ ix0 h24 e
  have k0 : (0#32 : BitVec 32).toInt ≤ (srcOf (m ((c.tc : Thread nD τ).loc main_arg1)) e).toInt := IntOp.cmpi_sge.mp g0
  have k1 : (srcOf (m ((c.tc : Thread nD τ).loc main_arg1)) e).toInt < (500000#32 : BitVec 32).toInt := IntOp.cmpi_slt.mp g1
  have z0 : (0#32 : BitVec 32).toInt = 0 := by decide
  have z1 : (500000#32 : BitVec 32).toInt = 500000 := by decide
  rw [z0] at k0
  rw [z1] at k1
  exact ⟨k0, k1⟩

end Cert.KernelIdeal.Host

end
-- ==== Proof.SameLoss.lean ====
/-
  Both programs compute the same loss.

  The kernel's program ends with the body's arithmetic of the padded rows of its node sums, its residual and its mask; the
  reference with mean(|where(mask, Ad, 0) − residual|). Each is the sum over the 500000 nodes of the node terms, times
  1/500000 (the kernel's named reciprocal; the reference's division by 500000). The node sums agree because, under the
  precondition, every source index is in [0, 500000): there `jnp.take` in fill mode and plain indexing both gather d at
  the same (non-negative, in-bounds) start index, and the products are scatter-added alike.
-/
import proofs.«413748_j82978768159400_3_alg».proof.Proof.LossBlock
import proofs.«413748_j82978768159400_3_alg».proof.Proof.HostRows
import proofs.«413748_j82978768159400_3_alg».proof.Proof.PayloadSum
import proofs.«413748_j82978768159400_3_alg».proof.Proof.RefValue
import proofs.«413748_j82978768159400_3_alg».proof.Proof.InRange
import proofs.«413748_j82978768159400_3_alg».proof.Proof.PreDecode
import proofs.«413748_j82978768159400_3_alg».proof.Proof.Gen.Kernel.Frame
import proofs.«413748_j82978768159400_3_alg».proof.Proof.Gen.ReferenceIdeal.Run
import Idealize.ShloMosaic.PureOps.IdealRules

noncomputable section

open Idealize.ShloMosaic Idealize.ShloMosaic.TcCoe Idealize.SL.Sem

namespace Cert.Proof.SameLoss

/-- Under the index range the kernel's node sums are the reference's scatter-added products. -/
theorem nodeSums_eq (d : FVec Ideal Cert.KernelIdeal.S500000 .f32) (ei : IVec Cert.KernelIdeal.S2x16000000 32)
    (mv : FVec Ideal Cert.KernelIdeal.S16000000 .f32)
    (hs : ∀ e : Cert.KernelIdeal.S16000000.Idx, 0 ≤ (Cert.KernelIdeal.Host.srcOf ei e).toInt ∧ (Cert.KernelIdeal.Host.srcOf ei e).toInt < 500000) :
    Cert.KernelIdeal.Host.nodeSums (F := Ideal) d ei mv = Cert.ReferenceIdeal.Read.val_main_v14 (F := Ideal) d ei mv := by
  unfold Cert.KernelIdeal.Host.nodeSums
  rw [Cert.KernelIdeal.Host.takenAt_eq_gatheredAt d _ hs]
  rfl

open Cert.KernelIdeal in
/-- THE KERNEL'S RESULT IS THE REFERENCE'S FUNCTION of the same arguments, under the precondition. -/
theorem kernel_result (m : (ℓ : Loc nD τ sig) → Buf (Elt Ideal) ℓ) (hpre : Cert.Pre_KernelIdeal m) (c : Dev nD) :
    (shapeCast S_ (Cert.KernelIdeal.Loss.stored m c) Cert.KernelIdeal.Gen.shapeCasts_S1x1_S_ : S_.Idx → EReal)
      = Cert.ReferenceIdeal.Read.val_main_v19 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  unfold Cert.KernelIdeal.Loss.stored Cert.KernelIdeal.Loss.prodRows Cert.KernelIdeal.Loss.resRows Cert.KernelIdeal.Loss.maskRows
  rw [Cert.KernelIdeal.Host.prod_rows m c, Cert.KernelIdeal.Host.res_rows m c, Cert.KernelIdeal.Host.mask_rows m c]
  rw [Cert.KernelIdeal.LossValue.kernel_value, Cert.ReferenceIdeal.LossValue.reference_value,
    nodeSums_eq _ _ _ (Cert.KernelIdeal.Host.src_in_range m hpre c)]

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: the table gives "inv_500000" the value 1/500000, and the printed constant is that value
    at the ideal instance. -/
theorem preserves : Cert.preserves_Kernel_KernelIdeal :=
  IdealRules.named_const.statement Cert.KernelIdeal.κ "inv_500000" .f32 0x360637BD#32 ((1 / 500000 : ℝ) : EReal) rfl

/-- From memories agreeing on the arguments both programs run, and both end at the reference's function of the
    kernel program's arguments. -/
theorem algebraic : Cert.algebraic_KernelIdeal_ReferenceIdeal := by
  intro m ρ m' ρ' hpre hagree
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m hpre c), (h c).2⟩)
      (Cert.KernelIdeal.Loss.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v19_eq _ _ _ _ _

end Cert.Proof.SameLoss

end
-- ==== Proof.lean ====
/-
  The certificate of the masked L1 loss after a sparse matrix–vector product.

  The kernel's program gathers d at each edge's source with `jnp.take`, multiplies by matrix_values, scatter-adds into
  the destination nodes, pads the node sums, the residual and the mask to rows of 128 lanes, and its one Pallas call
  returns (Σ over rows of Σ over lanes of |where(mask, Ad, 0) − residual|) · (1/500000); the reference is
  mean(|where(mask, Ad, 0) − residual|) over the 500000 nodes with Ad gathered by plain indexing. Over the extended reals the
  two agree when every source index is a node index, 0 ≤ edge_index[1] < 500000, which the precondition states beside the
  finiteness of the float inputs: there the fill-mode take is the gather, the 96 padding positions add |0 − 0| = 0, a sum
  taken lane axis first is the sum, and dividing by 500000 is multiplying by 1/500000 (Proof/SameLoss.lean).
  The three frames are the generated ones (the reference's is its generated run with the result dropped), and the one
  ledger entry names the reciprocal.
-/
import proofs.«413748_j82978768159400_3_alg».proof.Defs
import proofs.«413748_j82978768159400_3_alg».proof.Proof.Gen.Kernel
import proofs.«413748_j82978768159400_3_alg».proof.Proof.Gen.Kernel.Skeleton
import proofs.«413748_j82978768159400_3_alg».proof.Proof.Gen.Kernel.Launch
import proofs.«413748_j82978768159400_3_alg».proof.Proof.Gen.Kernel.Points
import proofs.«413748_j82978768159400_3_alg».proof.Proof.Gen.Kernel.Frame
import proofs.«413748_j82978768159400_3_alg».proof.Proof.Gen.KernelIdeal
import proofs.«413748_j82978768159400_3_alg».proof.Proof.Gen.KernelIdeal.Skeleton
import proofs.«413748_j82978768159400_3_alg».proof.Proof.Gen.KernelIdeal.Launch
import proofs.«413748_j82978768159400_3_alg».proof.Proof.Gen.KernelIdeal.Points
import proofs.«413748_j82978768159400_3_alg».proof.Proof.Gen.KernelIdeal.Frame
import proofs.«413748_j82978768159400_3_alg».proof.Proof.Gen.ReferenceIdeal
import proofs.«413748_j82978768159400_3_alg».proof.Proof.Gen.ReferenceIdeal.Run
import proofs.«413748_j82978768159400_3_alg».proof.Proof.Gen.ReferenceIdeal.Read
import proofs.«413748_j82978768159400_3_alg».proof.Proof.Gen.Pre_finite_inputs
import proofs.«413748_j82978768159400_3_alg».proof.Proof.SameLoss
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    SameLoss.frame_kernel, SameLoss.frame_kernel_ideal, SameLoss.frame_reference, SameLoss.preserves, SameLoss.algebraic⟩

end Cert.Proof

end
